-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S40 .f32) (main_arg7 : FVec F S800000 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S800000 .f32 := Host.absf main_arg7
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x512 .f32) (main_arg1 : FVec F S512x128 .f32) (main_arg2 : FVec F S128 .f32) (main_arg3 : FVec F S128x40 .f32) (main_arg4 : FVec F S40 .f32) (main_arg5 : IVec S800000 32) (main_arg6 : IVec S800000 32) (main_arg7 : FVec F S800000 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_arg7 main_v13 main_v16
-- ==== Kernel.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S50000x128 : Shape := ⟨2, ![50000, 128]⟩
abbrev S2000x512 : Shape := ⟨2, ![2000, 512]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 46
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x40, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x40, .f32⟩
  | .hbm, ⟨38, _⟩ => ⟨S800000x40, .f32⟩
  | .hbm, ⟨39, _⟩ => ⟨S800000x40, .f32⟩
  | .hbm, ⟨40, _⟩ => ⟨S_, .f32⟩
  | .hbm, ⟨41, _⟩ => ⟨S50000x40, .f32⟩
  | .hbm, ⟨42, _⟩ => ⟨S800000x1, .i32⟩
  | .hbm, ⟨43, _⟩ => ⟨S50000x40, .f32⟩
  | .hbm, ⟨44, _⟩ => ⟨S1x40, .f32⟩
  | .hbm, ⟨45, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  shapeCasts_S2000x40_S2000x40 : S2000x40.ShapeCasts S2000x40
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S800000 : Shape := ⟨1, ![800000]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x40, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Mm0.lean ====
/-
  The first dense layer's product, region by region of the node axis.  The kernel computes rows 2000·t … 2000·t + 1999
  of x · W₁ at grid point t (the two operands rounded to bf16 first, which is the identity on extended reals, and the
  matrix unit started from a zero accumulator, which adds nothing); the 25 row blocks tile the 50000 rows, so the array
  the region leaves is the whole product, entry (r, c) = Σₖ x[r, k] · W₁[k, c].
-/
import proofs.«135313_j4509715661020_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off : (![0, 0] : Fin 2 → Nat) = fun _ => 0 := funext fun a => by fin_cases a <;> rfl

/-- Row `r`, column `k` of a [R, 512] operand, from an output index (r, ·) and a contraction index k. -/
abbrev lrow0 {R : Nat} (i : (⟨2, ![R, 128]⟩ : Shape).Idx) (k : Fin 512) : (⟨2, ![R, 512]⟩ : Shape).Idx := fun a => match a with
  | ⟨0, _⟩ => ⟨(i 0).val, (i 0).isLt⟩
  | ⟨1, _⟩ => ⟨k.val, k.isLt⟩
/-- Row `k`, column `c` of the [512, 128] operand, from an output index (·, c) and a contraction index k. -/
abbrev rcol0 {R : Nat} (i : (⟨2, ![R, 128]⟩ : Shape).Idx) (k : Fin 512) : S512x128.Idx := fun a => match a with
  | ⟨0, _⟩ => ⟨k.val, k.isLt⟩
  | ⟨1, _⟩ => ⟨(i 1).val, (i 1).isLt⟩

/-- x · W₁ over the extended reals: entry (r, c) is Σₖ x[r, k] · W₁[k, c]. -/
def mm0 (x : S50000x512.Idx → Elt Ideal .f32) (w : S512x128.Idx → Elt Ideal .f32) : S50000x128.Idx → Elt Ideal .f32 :=
  fun i => ∑ k : Fin 512, x (lrow0 i k) * w (rcol0 i k)

/-! ## One block's product -/

theorem lhs0_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs0_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs0_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs0_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The body's stored value at (p, c): Σₖ xb[p, k] · wb[k, c] of the two loaded blocks. -/
theorem pay0_apply (xb : Vec Ideal S2000x512 .f32) (wb : Vec Ideal S512x128 .f32) (j : S2000x128.Idx) :
    k0_pay1 (F := Ideal) xb wb j = ∑ k : Fin 512, xb (lrow0 j k) * wb (rcol0 j k) := by
  unfold k0_pay1
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = lrow0 j k := funext fun a => Fin.ext (by
    match a with
    | ⟨0, _⟩ => exact lhs0_0 _ _
    | ⟨1, _⟩ => exact (lhs0_1 _ _).trans hk)
  have er : dot_S2000x512_S512x128_S2000x128_1_0_0_1_n_n.rhsIdx j ((ValueIdx.contrEquiv1 dot_S2000x512_S512x128_S2000x128_1_0_0_1_n_n 512 rfl rfl).symm k) = rcol0 j k := funext fun a => Fin.ext (by
    match a with
    | ⟨0, _⟩ => exact (rhs0_0 _ _).trans hk
    | ⟨1, _⟩ => exact rhs0_1 _ _)
  rw [el, er]
  rfl

/-! ## The blocks the region stages -/

/-- Over the 25 grid points: x's window and the output's move down the rows with the point, W₁'s stays put. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x's block at point t is rows 2000·t … of x. -/
theorem xblk0_apply (c : Dev nD) (t : Fin cfg0.N) (y : S2000x512.Idx) (i : S50000x512.Idx)
    (h0 : (i 0).val = 2000 * t.val + (y 0).val) (h1 : (i 1).val = (y 1).val) :
    (iblk0 V c 0 t : Vec Ideal S2000x512 .f32) y = (V c main_arg0 : S50000x512.Idx → Elt Ideal .f32) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- W₁'s block at every point is W₁. -/
theorem wblk0_apply (c : Dev nD) (t : Fin cfg0.N) (y : S512x128.Idx) :
    (iblk0 V c 1 t : Vec Ideal S512x128 .f32) y = (V c main_arg1 : S512x128.Idx → Elt Ideal .f32) y := by
  obtain ⟨-, -, e0, e1, -, -⟩ := idx0 t
  unfold iblk0
  rw [View.read_apply]
  show V c main_arg1 _ = V c main_arg1 _
  congr 1
  funext a
  apply Fin.ext
  match a with
  | ⟨0, _⟩ => show win0_1.index t 0 * 512 + 1 * (y 0).val = (y 0).val; rw [e0]; omega
  | ⟨1, _⟩ => show win0_1.index t 1 * 128 + 1 * (y 1).val = (y 1).val; rw [e1]; omega

/-! ## What each point writes back, and the whole array -/

theorem flushed0_eq (c : Dev nD) (t : Fin cfg0.N) :
    (dat0 V c).flushed 2 t = ((cfg0.win 2).blk t).view.read (Elt Ideal) (mm0 (V c main_arg0) (V c main_arg1)) := by
  show (cfg0.win 2).cut (grid0.coords t) ((dat0 V c).after 2 t) = _
  rw [after0_2]
  unfold out0_2
  rw [View.canon_unit_zero zero_off]
  simp only [View.ld_unit_zero (S := S2000x512) zero_off, View.ld_unit_zero (S := S512x128) zero_off]
  obtain ⟨-, -, -, -, e0, e1⟩ := idx0 t
  funext j
  show k0_pay1 (iblk0 V c 0 t) (iblk0 V c 1 t) j = mm0 (V c main_arg0) (V c main_arg1) (((cfg0.win 2).blk t).view.emb j)
  refine (pay0_apply (iblk0 V c 0 t) (iblk0 V c 1 t) j).trans ?_
  unfold mm0
  refine Finset.sum_congr rfl fun k _ => ?_
  have hx : (iblk0 V c 0 t : Vec Ideal S2000x512 .f32) (lrow0 j k) = (V c main_arg0 : S50000x512.Idx → Elt Ideal .f32) (lrow0 (((cfg0.win 2).blk t).view.emb j) k) := by
    refine xblk0_apply V c t _ _ ?_ ?_
    · show win0_2.index t 0 * 2000 + 1 * (j 0).val = 2000 * t.val + (j 0).val; rw [e0]; omega
    · rfl
  have hw : (iblk0 V c 1 t : Vec Ideal S512x128 .f32) (rcol0 j k) = (V c main_arg1 : S512x128.Idx → Elt Ideal .f32) (rcol0 (((cfg0.win 2).blk t).view.emb j) k) := by
    refine (wblk0_apply V c t _).trans ?_
    congr 1
    funext a
    apply Fin.ext
    match a with
    | ⟨0, _⟩ => rfl
    | ⟨1, _⟩ => show (j 1).val = win0_2.index t 1 * 128 + 1 * (j 1).val; rw [e1]; omega
  rw [hx, hw]

theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r lies in block r / 2000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, e0, e1⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e0]; show (i 0).val / 2000 * 2000 ≤ (i 0).val ∧ (i 0).val < (i 0).val / 2000 * 2000 + 2000; omega
  | ⟨1, _⟩ => show win0_2.index t (1 : Fin 2) * 128 ≤ (i 1).val ∧ (i 1).val < win0_2.index t (1 : Fin 2) * 128 + 128; rw [e1]; omega

/-- The array region 0 leaves in its output window is x · W₁ of the two arrays it found. -/
theorem final0 (c : Dev nD) : (dat0 V c).arrAt 2 cfg0.N = mm0 (V c main_arg0) (V c main_arg1) :=
  (dat0 V c).arrAt_eq_of_cover 2 (mm0 (V c main_arg0) (V c main_arg1)) (fun t _ => flushed0_eq V c t) cover0

end Cert.KernelIdeal.Layer

end
-- ==== Proof.Ba1.lean ====
/-
  The first layer's bias and rectifier, region by region of the node axis.  At grid point t the kernel adds the bias
  row b₁ (a [1, 128] array, broadcast down the 2000 rows of the block) to rows 2000·t … of the aggregated features and
  takes the maximum with zero; the 25 row blocks tile the 50000 rows, so the array the region leaves has entry
  (r, c) = max(agg[r, c] + b₁[0, c], 0).
-/
import proofs.«135313_j4509715661020_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off1 : (![0, 0] : Fin 2 → Nat) = fun _ => 0 := funext fun a => by fin_cases a <;> rfl

/-- The bias row's entry over column c of an index (r, c). -/
abbrev brow1 {R : Nat} (i : (⟨2, ![R, 128]⟩ : Shape).Idx) : S1x128.Idx := fun a => match a with
  | ⟨0, _⟩ => ⟨0, Nat.one_pos⟩
  | ⟨1, _⟩ => ⟨(i 1).val, (i 1).isLt⟩

/-- max(a + b₁, 0), entry by entry, the bias row read at the entry's column. -/
def ba1 (a : S50000x128.Idx → Elt Ideal .f32) (b : S1x128.Idx → Elt Ideal .f32) : S50000x128.Idx → Elt Ideal .f32 :=
  fun i => FloatOps.maximumf (F := Ideal) (φ := .f32) (FloatOps.addf (F := Ideal) (φ := .f32) (a i) (b (brow1 i))) (FloatOps.ofBits (F := Ideal) .f32 0x00000000#32)

/-- The body's stored value at (p, c): max(ab[p, c] + bb[0, c], 0) of the two loaded blocks. -/
theorem pay1_apply (bb : Vec Ideal S1x128 .f32) (ab : Vec Ideal S2000x128 .f32) (j : S2000x128.Idx) :
    k1_pay1 (F := Ideal) bb ab j = FloatOps.maximumf (F := Ideal) (φ := .f32) (FloatOps.addf (F := Ideal) (φ := .f32) (ab j) (bb (brow1 j))) (FloatOps.ofBits (F := Ideal) .f32 0x00000000#32) := by
  unfold k1_pay1
  simp only [shapeCast_self, maximumf, addf, broadcast]
  rw [broadcastTo_apply bb broadcasts_S1x128_S2000x128 j (brow1 j) (fun a => by match a with | ⟨0, _⟩ => rfl | ⟨1, _⟩ => rfl)]

/-- Over the 25 grid points: the aggregate's window and the output's move down the rows with the point, the bias row's stays put. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregate's block at point t is rows 2000·t … of the aggregate. -/
theorem ablk1_apply (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_v13 : S50000x128.Idx → Elt Ideal .f32) i := by
  obtain ⟨e0, e1, -, -, -, -⟩ := idx1 t
  unfold iblk1
  rw [View.read_apply]
  show V c main_v13 _ = V c main_v13 _
  congr 1
  funext a
  apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- The bias row's block at every point is the bias row. -/
theorem bblk1_apply (c : Dev nD) (t : Fin cfg1.N) (y : S1x128.Idx) :
    (iblk1 V c 1 t : Vec Ideal S1x128 .f32) y = (V c main_v14 : S1x128.Idx → Elt Ideal .f32) y := by
  obtain ⟨-, -, e0, e1, -, -⟩ := idx1 t
  unfold iblk1
  rw [View.read_apply]
  show V c main_v14 _ = V c main_v14 _
  congr 1
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega

theorem flushed1_eq (c : Dev nD) (t : Fin cfg1.N) :
    (dat1 V c).flushed 2 t = ((cfg1.win 2).blk t).view.read (Elt Ideal) (ba1 (V c main_v13) (V c main_v14)) := by
  show (cfg1.win 2).cut (grid1.coords t) ((dat1 V c).after 2 t) = _
  rw [after1_2]
  unfold out1_2
  rw [View.canon_unit_zero zero_off1]
  simp only [View.ld_unit_zero (S := S2000x128) zero_off1, View.ld_unit_zero (S := S1x128) zero_off1]
  obtain ⟨-, -, -, -, e0, e1⟩ := idx1 t
  funext j
  show k1_pay1 (iblk1 V c 1 t) (iblk1 V c 0 t) j = ba1 (V c main_v13) (V c main_v14) (((cfg1.win 2).blk t).view.emb j)
  refine (pay1_apply (iblk1 V c 1 t) (iblk1 V c 0 t) j).trans ?_
  unfold ba1
  have ha : (iblk1 V c 0 t : Vec Ideal S2000x128 .f32) j = (V c main_v13 : S50000x128.Idx → Elt Ideal .f32) (((cfg1.win 2).blk t).view.emb j) := by
    refine ablk1_apply V c t _ _ ?_ ?_
    · show win1_2.index t 0 * 2000 + 1 * (j 0).val = 2000 * t.val + (j 0).val; rw [e0]; omega
    · show win1_2.index t 1 * 128 + 1 * (j 1).val = (j 1).val; rw [e1]; omega
  have hb : (iblk1 V c 1 t : Vec Ideal S1x128 .f32) (brow1 j) = (V c main_v14 : S1x128.Idx → Elt Ideal .f32) (brow1 (((cfg1.win 2).blk t).view.emb j)) := by
    refine (bblk1_apply V c t _).trans ?_
    congr 1
    funext a
    apply Fin.ext
    match a with
    | ⟨0, _⟩ => rfl
    | ⟨1, _⟩ => show (j 1).val = win1_2.index t 1 * 128 + 1 * (j 1).val; rw [e1]; omega
  rw [ha, hb]

theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v15).slice (win1_2.rect t)).set ↔ _
  rw [View.set_slice_whole, Rect.mem_set_unit]
  exact Iff.rfl

/-- Row r lies in block r / 2000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, e0, e1⟩ := idx1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e0]; show (i 0).val / 2000 * 2000 ≤ (i 0).val ∧ (i 0).val < (i 0).val / 2000 * 2000 + 2000; omega
  | ⟨1, _⟩ => show win1_2.index t (1 : Fin 2) * 128 ≤ (i 1).val ∧ (i 1).val < win1_2.index t (1 : Fin 2) * 128 + 128; rw [e1]; omega

/-- The array region 1 leaves in its output window is max(agg + b₁, 0) of the two arrays it found. -/
theorem final1 (c : Dev nD) : (dat1 V c).arrAt 2 cfg1.N = ba1 (V c main_v13) (V c main_v14) :=
  (dat1 V c).arrAt_eq_of_cover 2 (ba1 (V c main_v13) (V c main_v14)) (fun t _ => flushed1_eq V c t) cover1

end Cert.KernelIdeal.Layer

end
-- ==== Proof.Mm2.lean ====
/-
  The second dense layer's product, region by region of the node axis.  At grid point t the kernel multiplies rows
  2000·t … 2000·t + 1999 of the hidden features h (a [50000, 128] array) by W₂ (a [128, 40] array); both operands are
  rounded to bf16 first, which is the identity on extended reals, and the matrix unit starts from a zero accumulator.
  The 25 row blocks tile the 50000 rows, so the array the region leaves is h · W₂, entry (r, c) = Σₖ h[r, k] · W₂[k, c].
-/
import proofs.«135313_j4509715661020_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off2 : (![0, 0] : Fin 2 → Nat) = fun _ => 0 := funext fun a => by fin_cases a <;> rfl

/-- Row `r`, column `k` of a [R, 128] operand, from an output index (r, ·) of a [R, 40] array and a contraction index k. -/
abbrev lrow2 {R : Nat} (i : (⟨2, ![R, 40]⟩ : Shape).Idx) (k : Fin 128) : (⟨2, ![R, 128]⟩ : Shape).Idx := fun a => match a with
  | ⟨0, _⟩ => ⟨(i 0).val, (i 0).isLt⟩
  | ⟨1, _⟩ => ⟨k.val, k.isLt⟩
/-- Row `k`, column `c` of the [128, 40] operand, from an output index (·, c) and a contraction index k. -/
abbrev rcol2 {R : Nat} (i : (⟨2, ![R, 40]⟩ : Shape).Idx) (k : Fin 128) : S128x40.Idx := fun a => match a with
  | ⟨0, _⟩ => ⟨k.val, k.isLt⟩
  | ⟨1, _⟩ => ⟨(i 1).val, (i 1).isLt⟩

/-- h · W₂ over the extended reals: entry (r, c) is Σₖ h[r, k] · W₂[k, c]. -/
def mm2 (x : S50000x128.Idx → Elt Ideal .f32) (w : S128x40.Idx → Elt Ideal .f32) : S50000x40.Idx → Elt Ideal .f32 :=
  fun i => ∑ k : Fin 128, x (lrow2 i k) * w (rcol2 i k)

/-! ## One block's product -/

theorem lhs2_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs2_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs2_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs2_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The body's stored value at (p, c): Σₖ hb[p, k] · wb[k, c] of the two loaded blocks. -/
theorem pay2_apply (xb : Vec Ideal S2000x128 .f32) (wb : Vec Ideal S128x40 .f32) (j : S2000x40.Idx) :
    k2_pay1 (F := Ideal) xb wb j = ∑ k : Fin 128, xb (lrow2 j k) * wb (rcol2 j k) := by
  unfold k2_pay1
  simp only [shapeCast_self, matmul]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx j ((ValueIdx.contrEquiv1 dot_S2000x128_S128x40_S2000x40_1_0_0_1_n_n 128 rfl rfl).symm k) = lrow2 j k := funext fun a => Fin.ext (by
    match a with
    | ⟨0, _⟩ => exact lhs2_0 _ _
    | ⟨1, _⟩ => exact (lhs2_1 _ _).trans hk)
  have er : dot_S2000x128_S128x40_S2000x40_1_0_0_1_n_n.rhsIdx j ((ValueIdx.contrEquiv1 dot_S2000x128_S128x40_S2000x40_1_0_0_1_n_n 128 rfl rfl).symm k) = rcol2 j k := funext fun a => Fin.ext (by
    match a with
    | ⟨0, _⟩ => exact (rhs2_0 _ _).trans hk
    | ⟨1, _⟩ => exact rhs2_1 _ _)
  rw [el, er]
  rfl

/-! ## The blocks the region stages -/

/-- Over the 25 grid points: h's window and the output's move down the rows with the point, W₂'s stays put. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- h's block at point t is rows 2000·t … of h. -/
theorem xblk2_apply (c : Dev nD) (t : Fin cfg2.N) (y : S2000x128.Idx) (i : S50000x128.Idx)
    (h0 : (i 0).val = 2000 * t.val + (y 0).val) (h1 : (i 1).val = (y 1).val) :
    (iblk2 V c 0 t : Vec Ideal S2000x128 .f32) y = (V c main_v15 : S50000x128.Idx → Elt Ideal .f32) i := by
  obtain ⟨e0, e1, -, -, -, -⟩ := idx2 t
  unfold iblk2
  rw [View.read_apply]
  show V c main_v15 _ = V c main_v15 _
  congr 1
  funext a
  apply Fin.ext
  match a with
  | ⟨0, _⟩ => show win2_0.index t 0 * 2000 + 1 * (y 0).val = (i 0).val; rw [e0, h0]; omega
  | ⟨1, _⟩ => show win2_0.index t 1 * 128 + 1 * (y 1).val = (i 1).val; rw [e1, h1]; omega

/-- W₂'s block at every point is W₂. -/
theorem wblk2_apply (c : Dev nD) (t : Fin cfg2.N) (y : S128x40.Idx) :
    (iblk2 V c 1 t : Vec Ideal S128x40 .f32) y = (V c main_arg3 : S128x40.Idx → Elt Ideal .f32) y := by
  obtain ⟨-, -, e0, e1, -, -⟩ := idx2 t
  unfold iblk2
  rw [View.read_apply]
  show V c main_arg3 _ = V c main_arg3 _
  congr 1
  funext a
  apply Fin.ext
  match a with
  | ⟨0, _⟩ => show win2_1.index t 0 * 128 + 1 * (y 0).val = (y 0).val; rw [e0]; omega
  | ⟨1, _⟩ => show win2_1.index t 1 * 40 + 1 * (y 1).val = (y 1).val; rw [e1]; omega

/-! ## What each point writes back, and the whole array -/

theorem flushed2_eq (c : Dev nD) (t : Fin cfg2.N) :
    (dat2 V c).flushed 2 t = ((cfg2.win 2).blk t).view.read (Elt Ideal) (mm2 (V c main_v15) (V c main_arg3)) := by
  show (cfg2.win 2).cut (grid2.coords t) ((dat2 V c).after 2 t) = _
  rw [after2_2]
  unfold out2_2
  rw [View.canon_unit_zero zero_off2]
  simp only [View.ld_unit_zero (S := S2000x128) zero_off2, View.ld_unit_zero (S := S128x40) zero_off2]
  obtain ⟨-, -, -, -, e0, e1⟩ := idx2 t
  funext j
  show k2_pay1 (iblk2 V c 0 t) (iblk2 V c 1 t) j = mm2 (V c main_v15) (V c main_arg3) (((cfg2.win 2).blk t).view.emb j)
  refine (pay2_apply (iblk2 V c 0 t) (iblk2 V c 1 t) j).trans ?_
  unfold mm2
  refine Finset.sum_congr rfl fun k _ => ?_
  have hx : (iblk2 V c 0 t : Vec Ideal S2000x128 .f32) (lrow2 j k) = (V c main_v15 : S50000x128.Idx → Elt Ideal .f32) (lrow2 (((cfg2.win 2).blk t).view.emb j) k) := by
    refine xblk2_apply V c t _ _ ?_ ?_
    · show win2_2.index t 0 * 2000 + 1 * (j 0).val = 2000 * t.val + (j 0).val; rw [e0]; omega
    · rfl
  have hw : (iblk2 V c 1 t : Vec Ideal S128x40 .f32) (rcol2 j k) = (V c main_arg3 : S128x40.Idx → Elt Ideal .f32) (rcol2 (((cfg2.win 2).blk t).view.emb j) k) := by
    refine (wblk2_apply V c t _).trans ?_
    congr 1
    funext a
    apply Fin.ext
    match a with
    | ⟨0, _⟩ => rfl
    | ⟨1, _⟩ => show (j 1).val = win2_2.index t 1 * 40 + 1 * (j 1).val; rw [e1]; omega
  rw [hx, hw]

theorem mem_blk2 (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v16).slice (win2_2.rect t)).set ↔ _
  rw [View.set_slice_whole, Rect.mem_set_unit]
  exact Iff.rfl

/-- Row r lies in block r / 2000. -/
theorem cover2 (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 25 := N_2
  let t : Fin cfg2.N := ⟨(i 0).val / 2000, by rw [hN]; omega⟩
  obtain ⟨-, -, -, -, e0, e1⟩ := idx2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e0]; show (i 0).val / 2000 * 2000 ≤ (i 0).val ∧ (i 0).val < (i 0).val / 2000 * 2000 + 2000; omega
  | ⟨1, _⟩ => show win2_2.index t (1 : Fin 2) * 40 ≤ (i 1).val ∧ (i 1).val < win2_2.index t (1 : Fin 2) * 40 + 40; rw [e1]; omega

/-- The array region 2 leaves in its output window is h · W₂ of the two arrays it found. -/
theorem final2 (c : Dev nD) : (dat2 V c).arrAt 2 cfg2.N = mm2 (V c main_v15) (V c main_arg3) :=
  (dat2 V c).arrAt_eq_of_cover 2 (mm2 (V c main_v15) (V c main_arg3)) (fun t _ => flushed2_eq V c t) cover2

end Cert.KernelIdeal.Layer

end
-- ==== Proof.Ba3.lean ====
/-
  The output layer's bias, region by region of the node axis.  At grid point t the kernel adds the bias row b₂ (a
  [1, 40] array, broadcast down the 2000 rows of the block) to rows 2000·t … of the aggregated class scores; the 25 row
  blocks tile the 50000 rows, so the array the region leaves has entry (r, c) = agg[r, c] + b₂[0, c].
-/
import proofs.«135313_j4509715661020_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off3 : (![0, 0] : Fin 2 → Nat) = fun _ => 0 := funext fun a => by fin_cases a <;> rfl

/-- The bias row's entry over column c of an index (r, c). -/
abbrev brow3 {R : Nat} (i : (⟨2, ![R, 40]⟩ : Shape).Idx) : S1x40.Idx := fun a => match a with
  | ⟨0, _⟩ => ⟨0, Nat.one_pos⟩
  | ⟨1, _⟩ => ⟨(i 1).val, (i 1).isLt⟩

/-- a + b₂, entry by entry, the bias row read at the entry's column. -/
def ba3 (a : S50000x40.Idx → Elt Ideal .f32) (b : S1x40.Idx → Elt Ideal .f32) : S50000x40.Idx → Elt Ideal .f32 :=
  fun i => FloatOps.addf (F := Ideal) (φ := .f32) (a i) (b (brow3 i))

/-- The body's stored value at (p, c): ab[p, c] + bb[0, c] of the two loaded blocks. -/
theorem pay3_apply (bb : Vec Ideal S1x40 .f32) (ab : Vec Ideal S2000x40 .f32) (j : S2000x40.Idx) :
    k3_pay1 (F := Ideal) bb ab j = FloatOps.addf (F := Ideal) (φ := .f32) (ab j) (bb (brow3 j)) := by
  unfold k3_pay1
  simp only [shapeCast_self, addf]
  rw [broadcastTo_apply bb broadcasts_S1x40_S2000x40 j (brow3 j) (fun a => by match a with | ⟨0, _⟩ => rfl | ⟨1, _⟩ => rfl)]

/-- Over the 25 grid points: the aggregate's window and the output's move down the rows with the point, the bias row's stays put. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregate's block at point t is rows 2000·t … of the aggregate. -/
theorem ablk3_apply (c : Dev nD) (t : Fin cfg3.N) (y : S2000x40.Idx) (i : S50000x40.Idx)
    (h0 : (i 0).val = 2000 * t.val + (y 0).val) (h1 : (i 1).val = (y 1).val) :
    (iblk3 V c 0 t : Vec Ideal S2000x40 .f32) y = (V c main_v29 : S50000x40.Idx → Elt Ideal .f32) i := by
  obtain ⟨e0, e1, -, -, -, -⟩ := idx3 t
  unfold iblk3
  rw [View.read_apply]
  show V c main_v29 _ = V c main_v29 _
  congr 1
  funext a
  apply Fin.ext
  match a with
  | ⟨0, _⟩ => show win3_0.index t 0 * 2000 + 1 * (y 0).val = (i 0).val; rw [e0, h0]; omega
  | ⟨1, _⟩ => show win3_0.index t 1 * 40 + 1 * (y 1).val = (i 1).val; rw [e1, h1]; omega

/-- The bias row's block at every point is the bias row. -/
theorem bblk3_apply (c : Dev nD) (t : Fin cfg3.N) (y : S1x40.Idx) :
    (iblk3 V c 1 t : Vec Ideal S1x40 .f32) y = (V c main_v30 : S1x40.Idx → Elt Ideal .f32) y := by
  obtain ⟨-, -, e0, e1, -, -⟩ := idx3 t
  unfold iblk3
  rw [View.read_apply]
  show V c main_v30 _ = V c main_v30 _
  congr 1
  funext a
  apply Fin.ext
  match a with
  | ⟨0, _⟩ => show win3_1.index t 0 * 1 + 1 * (y 0).val = (y 0).val; rw [e0]; omega
  | ⟨1, _⟩ => show win3_1.index t 1 * 40 + 1 * (y 1).val = (y 1).val; rw [e1]; omega

theorem flushed3_eq (c : Dev nD) (t : Fin cfg3.N) :
    (dat3 V c).flushed 2 t = ((cfg3.win 2).blk t).view.read (Elt Ideal) (ba3 (V c main_v29) (V c main_v30)) := by
  show (cfg3.win 2).cut (grid3.coords t) ((dat3 V c).after 2 t) = _
  rw [after3_2]
  unfold out3_2
  rw [View.canon_unit_zero zero_off3]
  simp only [View.ld_unit_zero (S := S2000x40) zero_off3, View.ld_unit_zero (S := S1x40) zero_off3]
  obtain ⟨-, -, -, -, e0, e1⟩ := idx3 t
  funext j
  show k3_pay1 (iblk3 V c 1 t) (iblk3 V c 0 t) j = ba3 (V c main_v29) (V c main_v30) (((cfg3.win 2).blk t).view.emb j)
  refine (pay3_apply (iblk3 V c 1 t) (iblk3 V c 0 t) j).trans ?_
  unfold ba3
  have ha : (iblk3 V c 0 t : Vec Ideal S2000x40 .f32) j = (V c main_v29 : S50000x40.Idx → Elt Ideal .f32) (((cfg3.win 2).blk t).view.emb j) := by
    refine ablk3_apply V c t _ _ ?_ ?_
    · show win3_2.index t 0 * 2000 + 1 * (j 0).val = 2000 * t.val + (j 0).val; rw [e0]; omega
    · show win3_2.index t 1 * 40 + 1 * (j 1).val = (j 1).val; rw [e1]; omega
  have hb : (iblk3 V c 1 t : Vec Ideal S1x40 .f32) (brow3 j) = (V c main_v30 : S1x40.Idx → Elt Ideal .f32) (brow3 (((cfg3.win 2).blk t).view.emb j)) := by
    refine (bblk3_apply V c t _).trans ?_
    congr 1
    funext a
    apply Fin.ext
    match a with
    | ⟨0, _⟩ => rfl
    | ⟨1, _⟩ => show (j 1).val = win3_2.index t 1 * 40 + 1 * (j 1).val; rw [e1]; omega
  rw [ha, hb]

theorem mem_blk3 (t : Fin cfg3.N) (i : S50000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v31).slice (win3_2.rect t)).set ↔ _
  rw [View.set_slice_whole, Rect.mem_set_unit]
  exact Iff.rfl

/-- Row r lies in block r / 2000. -/
theorem cover3 (i : S50000x40.Idx) : ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 25 := N_3
  let t : Fin cfg3.N := ⟨(i 0).val / 2000, by rw [hN]; omega⟩
  obtain ⟨-, -, -, -, e0, e1⟩ := idx3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; rw [e0]; show (i 0).val / 2000 * 2000 ≤ (i 0).val ∧ (i 0).val < (i 0).val / 2000 * 2000 + 2000; omega
  | ⟨1, _⟩ => show win3_2.index t (1 : Fin 2) * 40 ≤ (i 1).val ∧ (i 1).val < win3_2.index t (1 : Fin 2) * 40 + 40; rw [e1]; omega

/-- The array region 3 leaves in its output window is agg + b₂ of the two arrays it found. -/
theorem final3 (c : Dev nD) : (dat3 V c).arrAt 2 cfg3.N = ba3 (V c main_v29) (V c main_v30) :=
  (dat3 V c).arrAt_eq_of_cover 2 (ba3 (V c main_v29) (V c main_v30)) (fun t _ => flushed3_eq V c t) cover3

end Cert.KernelIdeal.Layer

end
-- ==== Proof.Kept.lean ====
import proofs.«135313_j4509715661020_1_alg».proof.Proof.Gen.KernelIdeal.Frame
import Idealize.ShloMosaic.PureOps.Ideal

set_option maxRecDepth 16384

noncomputable section

namespace Cert.KernelIdeal.Layer

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! Region 0 stages none of these arrays. -/
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)

/-! No operation of the first host stretch writes one. -/
theorem W2_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg3 m ρ c)
theorem W2_arg4 (c : Dev nD) : W2 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg4 m ρ c)
theorem W2_arg5 (c : Dev nD) : W2 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg5 m ρ c)
theorem W2_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg6 m ρ c)
theorem W2_arg7 (c : Dev nD) : W2 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg7 m ρ c)

/-! Region 1 stages none. -/
theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg5 (c : Dev nD) : W3 m ρ c (Proc.devRef .tc main_arg5) = m ((c : Thread nD τ).loc main_arg5) :=
  (W3_of_ne m ρ c main_arg5 (by decide)).trans (W2_arg5 m ρ c)
theorem W3_arg6 (c : Dev nD) : W3 m ρ c (Proc.devRef .tc main_arg6) = m ((c : Thread nD τ).loc main_arg6) :=
  (W3_of_ne m ρ c main_arg6 (by decide)).trans (W2_arg6 m ρ c)
theorem W3_arg7 (c : Dev nD) : W3 m ρ c (Proc.devRef .tc main_arg7) = m ((c : Thread nD τ).loc main_arg7) :=
  (W3_of_ne m ρ c main_arg7 (by decide)).trans (W2_arg7 m ρ c)

/-! Region 2 stages none of the rest. -/
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

end Cert.KernelIdeal.Layer

end
-- ==== Proof.Chain.lean ====
/-
  The idealized kernel's result as one function of its eight arguments.  Its @main alternates four tiled regions with
  two stretches of host operations; reading the boundary contents in order:
    support₁ = x · W₁                                   (region 0)
    agg₁     = Σ over edges e with dst(e) = r of w_e · support₁[src(e)]   (host: wrap negative indices, gather, scale, scatter-add into zeros)
    h        = max(agg₁ + b₁, 0)                        (region 1; b₁ reshaped to a [1, 128] row on the host)
    support₂ = h · W₂                                   (region 2)
    agg₂     = the same aggregation of support₂          (host)
    out      = agg₂ + b₂                                (region 3; b₂ reshaped to a [1, 40] row on the host)
  Each region's array is its whole-array function of the arrays it found; each host stretch is read back operation by
  operation; no argument array is written on the way (the case table of that is the module Kept).
-/
import proofs.«135313_j4509715661020_1_alg».proof.Proof.Mm0
import proofs.«135313_j4509715661020_1_alg».proof.Proof.Ba1
import proofs.«135313_j4509715661020_1_alg».proof.Proof.Mm2
import proofs.«135313_j4509715661020_1_alg».proof.Proof.Ba3
import proofs.«135313_j4509715661020_1_alg».proof.Proof.Kept
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo

/-- A float array of shape `S` over the extended reals. -/
abbrev AF (S : Shape) := (⟨S, .f32⟩ : BufTy).Contents (Elt Ideal)
/-- An int32 array of shape `S`. -/
abbrev AI (S : Shape) := (⟨S, .i32⟩ : BufTy).Contents (Elt Ideal)

/-- jnp's index normalisation: a negative source index has the node count added. -/
def wrapIdx (src : AI S800000) : AI S800000 :=
  select (cmpi .slt src (broadcastInDim S800000 ![] bcast_S_S800000 (constantI S_ 32 0#32)))
    (addi src (broadcastInDim S800000 ![] bcast_S_S800000 (constantI S_ 32 50000#32))) src

/-- The sparse aggregation of a [50000, 128] table: gather the source rows, scale each by its edge weight, add into
    the destination rows of a zero array. -/
def agg1 (s : AF S50000x128) (src dst : AI S800000) (w : AF S800000) : AF S50000x128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 s (broadcastInDim S800000x1 ![0] bcast_S800000_S800000x1_0 (wrapIdx src))))

/-- The same aggregation of a [50000, 40] table. -/
def agg2 (s : AF S50000x40) (src dst : AI S800000) (w : AF S800000) : AF S50000x40 :=
  Host.scatterAdd scatter_S50000x40_S800000x1_S800000x40_1_0_0_1
    (broadcastInDim S50000x40 ![] bcast_S_S50000x40 (constant (F := Ideal) S_ .f32 0x00000000#32))
    (broadcastInDim S800000x1 ![0] bcast_S800000_S800000x1_0 dst)
    (mulf (broadcastInDim S800000x40 ![0, 1] bcast_S800000x1_S800000x40_0_1 (broadcastInDim S800000x1 ![0] bcast_S800000_S800000x1_0 w))
      (Host.gather gather_S50000x40_S800000x1_S800000x40_1_0_n_n_0_1_140 s (broadcastInDim S800000x1 ![0] bcast_S800000_S800000x1_0 (wrapIdx src))))

/-- b₁ as a [1, 128] row. -/
def row1 (b : AF S128) : AF S1x128 := shapeCast S1x128 b shapeCasts_S128_S1x128
/-- b₂ as a [1, 40] row. -/
def row2 (b : AF S40) : AF S1x40 := shapeCast S1x40 b shapeCasts_S40_S1x40

/-- The two-layer network the kernel computes, as one function of its arguments. -/
def net (x : AF S50000x512) (w1 : AF S512x128) (b1 : AF S128) (w2 : AF S128x40) (b2 : AF S40)
    (src dst : AI S800000) (w : AF S800000) : AF S50000x40 :=
  ba3 (agg2 (mm2 (ba1 (agg1 (mm0 x w1) src dst w) (row1 b1)) w2) src dst w) (row2 b2)

variable (m : (ℓ : Loc nD τ sig) → Buf (Elt Ideal) ℓ) (ρ : Dev nD → PrngReg)

/-! ## After region 0 -/

theorem W1_v0 (c : Dev nD) : W1 m ρ c (Proc.devRef .tc main_v0) = mm0 (m ((c : Thread nD τ).loc main_arg0)) (m ((c : Thread nD τ).loc main_arg1)) :=
  (W1_arr m ρ c 2).trans (final0 (V0 m ρ) c)

/-! ## After the first host stretch -/

theorem W2_v13 (c : Dev nD) : W2 m ρ c (Proc.devRef .tc main_v13)
    = agg1 (mm0 (m ((c : Thread nD τ).loc main_arg0)) (m ((c : Thread nD τ).loc main_arg1))) (m ((c : Thread nD τ).loc main_arg5)) (m ((c : Thread nD τ).loc main_arg6)) (m ((c : Thread nD τ).loc main_arg7)) := by
  suffices h : ∀ X, agg1 (mm0 (m ((c : Thread nD τ).loc main_arg0)) (m ((c : Thread nD τ).loc main_arg1))) (m ((c : Thread nD τ).loc main_arg5)) (m ((c : Thread nD τ).loc main_arg6)) (m ((c : Thread nD τ).loc main_arg7)) = X →
      StableHlo.after hostOps1 (W1 m ρ c) (Proc.devRef .tc main_v13) = X from h _ rfl
  intro X hX
  after_results
  rw [W1_v0, W1_arg5, W1_arg6, W1_arg7]
  exact hX
theorem W2_v14 (c : Dev nD) : W2 m ρ c (Proc.devRef .tc main_v14) = row1 (m ((c : Thread nD τ).loc main_arg2)) := by
  suffices h : ∀ X, row1 (m ((c : Thread nD τ).loc main_arg2)) = X → StableHlo.after hostOps1 (W1 m ρ c) (Proc.devRef .tc main_v14) = X from h _ rfl
  intro X hX
  after_results
  rw [W1_arg2]
  exact hX

/-! ## After region 1 -/

theorem W3_v15 (c : Dev nD) : W3 m ρ c (Proc.devRef .tc main_v15)
    = ba1 (agg1 (mm0 (m ((c : Thread nD τ).loc main_arg0)) (m ((c : Thread nD τ).loc main_arg1))) (m ((c : Thread nD τ).loc main_arg5)) (m ((c : Thread nD τ).loc main_arg6)) (m ((c : Thread nD τ).loc main_arg7))) (row1 (m ((c : Thread nD τ).loc main_arg2))) := by
  refine (W3_arr m ρ c 2).trans ((final1 (V2 m ρ) c).trans ?_)
  show ba1 (W2 m ρ c (Proc.devRef .tc main_v13)) (W2 m ρ c (Proc.devRef .tc main_v14)) = _
  rw [W2_v13, W2_v14]

/-! ## After region 2 -/

theorem W4_v16 (c : Dev nD) : W4 m ρ c (Proc.devRef .tc main_v16)
    = mm2 (ba1 (agg1 (mm0 (m ((c : Thread nD τ).loc main_arg0)) (m ((c : Thread nD τ).loc main_arg1))) (m ((c : Thread nD τ).loc main_arg5)) (m ((c : Thread nD τ).loc main_arg6)) (m ((c : Thread nD τ).loc main_arg7))) (row1 (m ((c : Thread nD τ).loc main_arg2)))) (m ((c : Thread nD τ).loc main_arg3)) := by
  refine (W4_arr m ρ c 2).trans ((final2 (V3 m ρ) c).trans ?_)
  show mm2 (W3 m ρ c (Proc.devRef .tc main_v15)) (W3 m ρ c (Proc.devRef .tc main_arg3)) = _
  rw [W3_v15, W3_arg3]

/-! ## After the second host stretch, and after region 3 -/

/-- The second aggregation, over whatever region 2 left (`S`). -/
theorem W5_v29_of (c : Dev nD) (S : AF S50000x40) (hS : W4 m ρ c (Proc.devRef .tc main_v16) = S) :
    W5 m ρ c (Proc.devRef .tc main_v29) = agg2 S (m ((c : Thread nD τ).loc main_arg5)) (m ((c : Thread nD τ).loc main_arg6)) (m ((c : Thread nD τ).loc main_arg7)) := by
  suffices h : ∀ X, agg2 S (m ((c : Thread nD τ).loc main_arg5)) (m ((c : Thread nD τ).loc main_arg6)) (m ((c : Thread nD τ).loc main_arg7)) = X →
      StableHlo.after hostOps3 (W4 m ρ c) (Proc.devRef .tc main_v29) = X from h _ rfl
  intro X hX
  after_results
  rw [hS, W4_arg5, W4_arg6, W4_arg7]
  exact hX
theorem W5_v29 (c : Dev nD) : W5 m ρ c (Proc.devRef .tc main_v29)
    = agg2 (mm2 (ba1 (agg1 (mm0 (m ((c : Thread nD τ).loc main_arg0)) (m ((c : Thread nD τ).loc main_arg1))) (m ((c : Thread nD τ).loc main_arg5)) (m ((c : Thread nD τ).loc main_arg6)) (m ((c : Thread nD τ).loc main_arg7))) (row1 (m ((c : Thread nD τ).loc main_arg2)))) (m ((c : Thread nD τ).loc main_arg3))) (m ((c : Thread nD τ).loc main_arg5)) (m ((c : Thread nD τ).loc main_arg6)) (m ((c : Thread nD τ).loc main_arg7)) :=
  W5_v29_of m ρ c _ (W4_v16 m ρ c)
theorem W5_v30 (c : Dev nD) : W5 m ρ c (Proc.devRef .tc main_v30) = row2 (m ((c : Thread nD τ).loc main_arg4)) := by
  suffices h : ∀ X, row2 (m ((c : Thread nD τ).loc main_arg4)) = X → StableHlo.after hostOps3 (W4 m ρ c) (Proc.devRef .tc main_v30) = X from h _ rfl
  intro X hX
  after_results
  rw [W4_arg4]
  exact hX

/-- The result buffer at the last boundary is the network of the launch arguments. -/
theorem W6_v31 (c : Dev nD) : W6 m ρ c (Proc.devRef .tc main_v31)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((final3 (V5 m ρ) c).trans ?_)
  show ba3 (W5 m ρ c (Proc.devRef .tc main_v29)) (W5 m ρ c (Proc.devRef .tc main_v30)) = _
  rw [W5_v29, W5_v30]
  rfl

end Cert.KernelIdeal.Layer

end
-- ==== Proof.RefSide.lean ====
/-
  The idealized reference computes the same two-layer network.  Its two dot_generals are the kernel's two products
  (the same sum over the contracted axis); its aggregation is the kernel's own host operations, word for word; adding a
  bias broadcast over the rows and taking the maximum with a broadcast zero is, entry by entry, what the kernel's
  elementwise regions do with the bias reshaped to a one-row array.
-/
import proofs.«135313_j4509715661020_1_alg».proof.Proof.Chain
import proofs.«135313_j4509715661020_1_alg».proof.Proof.Gen.ReferenceIdeal.Run
import proofs.«135313_j4509715661020_1_alg».proof.Proof.Gen.ReferenceIdeal.Read
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.KernelIdeal.Layer (mm0 ba1 mm2 ba3 agg1 agg2 row1 row2 net wrapIdx brow1 brow3 lrow0 rcol0 lrow2 rcol2)

/-- x · W₁ on the host is the kernel's first product: the sum over the one contracted axis, re-indexed by 0 … 511. -/
theorem dot1_eq (x : FVec Ideal S50000x512 .f32) (w : FVec Ideal S512x128 .f32) :
    Host.dotGeneral dot_S50000x512_S512x128_S50000x128_1_0_0_1_n_n none x w = mm0 x w := by
  funext i
  simp only [Host.dotGeneral]
  rw [Ideal.dotGeneral_apply, ← Equiv.sum_comp (ValueIdx.contrEquiv1 dot_S50000x512_S512x128_S50000x128_1_0_0_1_n_n 512 rfl rfl).symm]
  unfold Cert.KernelIdeal.Layer.mm0
  refine Finset.sum_congr rfl fun k _ => ?_
  have hk := ValueIdx.contrEquiv1_symm_val dot_S50000x512_S512x128_S50000x128_1_0_0_1_n_n 512 rfl rfl k
  have el : dot_S50000x512_S512x128_S50000x128_1_0_0_1_n_n.lhsIdx i ((ValueIdx.contrEquiv1 dot_S50000x512_S512x128_S50000x128_1_0_0_1_n_n 512 rfl rfl).symm k) = lrow0 i k := funext fun a => Fin.ext (by
    match a with
    | ⟨0, _⟩ => exact Read.lhs_main_v0_0 _ _
    | ⟨1, _⟩ => exact (Read.lhs_main_v0_1 _ _).trans hk)
  have er : dot_S50000x512_S512x128_S50000x128_1_0_0_1_n_n.rhsIdx i ((ValueIdx.contrEquiv1 dot_S50000x512_S512x128_S50000x128_1_0_0_1_n_n 512 rfl rfl).symm k) = rcol0 i k := funext fun a => Fin.ext (by
    match a with
    | ⟨0, _⟩ => exact (Read.rhs_main_v0_0 _ _).trans hk
    | ⟨1, _⟩ => exact Read.rhs_main_v0_1 _ _)
  rw [el, er]

/-- h · W₂ on the host is the kernel's second product: the sum over the one contracted axis, re-indexed by 0 … 127. -/
theorem dot2_eq (x : FVec Ideal S50000x128 .f32) (w : FVec Ideal S128x40 .f32) :
    Host.dotGeneral dot_S50000x128_S128x40_S50000x40_1_0_0_1_n_n none x w = mm2 x w := by
  funext i
  simp only [Host.dotGeneral]
  rw [Ideal.dotGeneral_apply, ← Equiv.sum_comp (ValueIdx.contrEquiv1 dot_S50000x128_S128x40_S50000x40_1_0_0_1_n_n 128 rfl rfl).symm]
  unfold Cert.KernelIdeal.Layer.mm2
  refine Finset.sum_congr rfl fun k _ => ?_
  have hk := ValueIdx.contrEquiv1_symm_val dot_S50000x128_S128x40_S50000x40_1_0_0_1_n_n 128 rfl rfl k
  have el : dot_S50000x128_S128x40_S50000x40_1_0_0_1_n_n.lhsIdx i ((ValueIdx.contrEquiv1 dot_S50000x128_S128x40_S50000x40_1_0_0_1_n_n 128 rfl rfl).symm k) = lrow2 i k := funext fun a => Fin.ext (by
    match a with
    | ⟨0, _⟩ => exact Read.lhs_main_v18_0 _ _
    | ⟨1, _⟩ => exact (Read.lhs_main_v18_1 _ _).trans hk)
  have er : dot_S50000x128_S128x40_S50000x40_1_0_0_1_n_n.rhsIdx i ((ValueIdx.contrEquiv1 dot_S50000x128_S128x40_S50000x40_1_0_0_1_n_n 128 rfl rfl).symm k) = rcol2 i k := funext fun a => Fin.ext (by
    match a with
    | ⟨0, _⟩ => exact (Read.rhs_main_v18_0 _ _).trans hk
    | ⟨1, _⟩ => exact Read.rhs_main_v18_1 _ _)
  rw [el, er]

/-- Column c of the length-128 bias. -/
abbrev col1 {R : Nat} (i : (⟨2, ![R, 128]⟩ : Shape).Idx) : S128.Idx := fun a => match a with
  | ⟨0, _⟩ => ⟨(i 1).val, (i 1).isLt⟩
/-- Column c of the length-40 bias. -/
abbrev col3 {R : Nat} (i : (⟨2, ![R, 40]⟩ : Shape).Idx) : S40.Idx := fun a => match a with
  | ⟨0, _⟩ => ⟨(i 1).val, (i 1).isLt⟩

/-- The bias broadcast first to a row and then down the rows, at (r, c), is b₁[c]; so is the reshaped row at (0, c). -/
theorem bias_relu_eq (a : FVec Ideal S50000x128 .f32) (b : FVec Ideal S128 .f32) :
    maximumf (addf a (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = ba1 a (row1 b) := by
  funext i
  have hl : broadcastInDim S50000x128 ![0, 1] bcast_S1x128_S50000x128_0_1 (broadcastInDim S1x128 ![1] bcast_S128_S1x128_1 b) i = b (col1 i) := by
    rw [broadcastInDim_apply ![0, 1] bcast_S1x128_S50000x128_0_1 _ i (brow1 i) (fun a => by match a with | ⟨0, _⟩ => rfl | ⟨1, _⟩ => rfl)]
    rw [broadcastInDim_apply ![1] bcast_S128_S1x128_1 b (brow1 i) (col1 i) (fun a => by match a with | ⟨0, _⟩ => rfl)]
  have hr : row1 b (brow1 i) = b (col1 i) := by
    unfold Cert.KernelIdeal.Layer.row1
    refine shapeCast_apply b _ (brow1 i) (col1 i) ?_
    rw [Shape.rowMajor_val_one, Shape.rowMajor_val_two]
    show (i 1).val = 0 * 128 + (i 1).val
    omega
  unfold Cert.KernelIdeal.Layer.ba1
  rw [hr, ← hl]
  rfl

/-- The same for the output layer's bias, without the rectifier. -/
theorem bias_eq (a : FVec Ideal S50000x40 .f32) (b : FVec Ideal S40 .f32) :
    addf a (broadcastInDim S50000x40 ![0, 1] bcast_S1x40_S50000x40_0_1 (broadcastInDim S1x40 ![1] bcast_S40_S1x40_1 b))
      = ba3 a (row2 b) := by
  funext i
  have hl : broadcastInDim S50000x40 ![0, 1] bcast_S1x40_S50000x40_0_1 (broadcastInDim S1x40 ![1] bcast_S40_S1x40_1 b) i = b (col3 i) := by
    rw [broadcastInDim_apply ![0, 1] bcast_S1x40_S50000x40_0_1 _ i (brow3 i) (fun a => by match a with | ⟨0, _⟩ => rfl | ⟨1, _⟩ => rfl)]
    rw [broadcastInDim_apply ![1] bcast_S40_S1x40_1 b (brow3 i) (col3 i) (fun a => by match a with | ⟨0, _⟩ => rfl)]
  have hr : row2 b (brow3 i) = b (col3 i) := by
    unfold Cert.KernelIdeal.Layer.row2
    refine shapeCast_apply b _ (brow3 i) (col3 i) ?_
    rw [Shape.rowMajor_val_one, Shape.rowMajor_val_two]
    show (i 1).val = 0 * 40 + (i 1).val
    omega
  unfold Cert.KernelIdeal.Layer.ba3
  rw [hr, ← hl]
  rfl

/-- The reference's aggregations are the kernel's: the same host operations over records that are equal field by field. -/
theorem agg1_eq (s : FVec Ideal S50000x128 .f32) (src dst : IVec S800000 32) (w : FVec Ideal S800000 .f32) :
    Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 w)) (Host.gather gather_S50000x128_S800000x1_S800000x128_1_0_n_n_0_1_1128 s (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))
      = agg1 s src dst w := rfl

theorem agg2_eq (s : FVec Ideal S50000x40 .f32) (src dst : IVec S800000 32) (w : FVec Ideal S800000 .f32) :
    Host.scatterAdd scatter_S50000x40_S800000x1_S800000x40_1_0_0_1 (broadcastInDim S50000x40 ![] bcast_S_S50000x40 (constant S_ .f32 0x00000000#32)) (broadcastInDim S800000x1 ![0] bcast_S800000_S800000x1_0 dst) (mulf (broadcastInDim S800000x40 ![0, 1] bcast_S800000x1_S800000x40_0_1 (broadcastInDim S800000x1 ![0] bcast_S800000_S800000x1_0 w)) (Host.gather gather_S50000x40_S800000x1_S800000x40_1_0_n_n_0_1_140 s (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))
      = agg2 s src dst w := rfl

/-- The reference run's result term is the kernel's network of the same arguments. -/
theorem result_eq (x : FVec Ideal S50000x512 .f32) (w1 : FVec Ideal S512x128 .f32) (b1 : FVec Ideal S128 .f32) (w2 : FVec Ideal S128x40 .f32) (b2 : FVec Ideal S40 .f32)
    (src dst : IVec S800000 32) (w : FVec Ideal S800000 .f32) :
    addf (Host.scatterAdd scatter_S50000x40_S800000x1_S800000x40_1_0_0_1 (broadcastInDim S50000x40 ![] bcast_S_S50000x40 (constant S_ .f32 0x00000000#32)) (broadcastInDim S800000x1 ![0] bcast_S800000_S800000x1_0 dst) (mulf (broadcastInDim S800000x40 ![0, 1] bcast_S800000x1_S800000x40_0_1 (broadcastInDim S800000x1 ![0] bcast_S800000_S800000x1_0 w)) (Host.gather gather_S50000x40_S800000x1_S800000x40_1_0_n_n_0_1_140 (Host.dotGeneral dot_S50000x128_S128x40_S50000x40_1_0_0_1_n_n none (maximumf (addf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 w)) (Host.gather gather_S50000x128_S800000x1_S800000x128_1_0_n_n_0_1_1128 (Host.dotGeneral dot_S50000x512_S512x128_S50000x128_1_0_0_1_n_n none x w1) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x128 ![0, 1] bcast_S1x128_S50000x128_0_1 (broadcastInDim S1x128 ![1] bcast_S128_S1x128_1 b1))) (broadcastInDim S50000x128 ![] bcast_S_S50000x128 (constant S_ .f32 0x00000000#32))) w2) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x40 ![0, 1] bcast_S1x40_S50000x40_0_1 (broadcastInDim S1x40 ![1] bcast_S40_S1x40_1 b2))
      = net x w1 b1 w2 b2 src dst w := by
  rw [dot1_eq, agg1_eq, bias_relu_eq, dot2_eq, agg2_eq, bias_eq]
  rfl

end Cert.ReferenceIdeal.RefValue

end
-- ==== Proof.lean ====
/-
  The certificate of the two-layer graph convolution: kernel against reference over the extended reals.

  Both programs compute  out = A · max(A · (x · W₁) + b₁, 0) · W₂ + b₂,  where A is the sparse aggregation
  (gather the source rows, scale by the edge weights, scatter-add into the destination rows).  The kernel tiles the two
  dense products and the two bias steps over blocks of 2000 nodes; the aggregation is the same host operations in both
  programs.  Over the extended reals a change of float format is the identity and the matrix unit's product into a zero
  accumulator is the plain sum over the contracted axis, so each tiled region is its whole-array function (modules Mm0,
  Ba1, Mm2, Ba3), the kernel's run composes them (RunMain, Kept, Chain), and the reference's run is the same
  composition (RefSide).  No law beyond associativity and commutativity of the finite sums is used, so the
  precondition is never opened.  The ideal pass rewrote nothing, so `preserves` is trivial.
-/
import proofs.«135313_j4509715661020_1_alg».proof.Defs
import proofs.«135313_j4509715661020_1_alg».proof.Proof.Gen.Kernel
import proofs.«135313_j4509715661020_1_alg».proof.Proof.Gen.Kernel.Frame
import proofs.«135313_j4509715661020_1_alg».proof.Proof.Gen.KernelIdeal
import proofs.«135313_j4509715661020_1_alg».proof.Proof.Gen.KernelIdeal.Frame
import proofs.«135313_j4509715661020_1_alg».proof.Proof.Gen.ReferenceIdeal
import proofs.«135313_j4509715661020_1_alg».proof.Proof.Gen.ReferenceIdeal.Run
import proofs.«135313_j4509715661020_1_alg».proof.Proof.Gen.Pre_finite_inputs
import proofs.«135313_j4509715661020_1_alg».proof.Proof.RunMain
import proofs.«135313_j4509715661020_1_alg».proof.Proof.Chain
import proofs.«135313_j4509715661020_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the (agreeing) arguments. -/
theorem algebraic : Cert.algebraic_KernelIdeal_ReferenceIdeal := by
  intro m ρ m' ρ' _ hagree
  refine ⟨fun c => Cert.KernelIdeal.Layer.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layer.W6_v31 m ρ c), (h c).2⟩) (Cert.KernelIdeal.GenP.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [h0, h1, h2, h3, h4, h5, h6, h7]
    exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
